-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1x4 : Shape := ⟨2, ![1, 4]⟩
abbrev S4 : Shape := ⟨1, ![4]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S1024x128 .f32) (main_arg1 : FVec F S1024x128 .f32) (main_arg2 : FVec F S1x4 .f32) (main_arg3 : FVec F S4 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1x4 .f32 := Host.absf main_arg2
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_c_3 : IVec S_ 1 := constantI S_ 1 1#1
  let main_v12 : IVec S_ 1 := (fun x v => Host.reduce IntOp.andi x v reducesTo_S1x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S1024x128 : Shape := ⟨2, ![1024, 128]⟩
abbrev S1x4 : Shape := ⟨2, ![1, 4]⟩
abbrev S4 : Shape := ⟨1, ![4]⟩
abbrev S1024x1024 : Shape := ⟨2, ![1024, 1024]⟩
abbrev S16x128 : Shape := ⟨2, ![16, 128]⟩
abbrev S16x1024 : Shape := ⟨2, ![16, 1024]⟩
abbrev S16x1x128 : Shape := ⟨3, ![16, 1, 128]⟩
abbrev S1x1024x128 : Shape := ⟨3, ![1, 1024, 128]⟩
abbrev S16x1024x128 : Shape := ⟨3, ![16, 1024, 128]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1x4, .f32⟩
  | .hbm, ⟨3, _⟩ => ⟨S4, .f32⟩
  | .hbm, ⟨4, _⟩ => ⟨S1024x1024, .f32⟩
  | .hbm, ⟨5, _⟩ => ⟨S1x1, .f32⟩
  | .hbm, ⟨6, _⟩ => ⟨S_, .f32⟩
  | .hbm, ⟨7, _⟩ => ⟨S1x4, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S4, .f32⟩
  | .local _ .vmem, ⟨0, _⟩ => ⟨S16x128, .f32⟩
  | .local _ .vmem, ⟨1, _⟩ => ⟨S16x128, .f32⟩
  | .local _ .vmem, ⟨2, _⟩ => ⟨S1024x128, .f32⟩
  | .local _ .vmem, ⟨3, _⟩ => ⟨S16x1024, .f32⟩
  | .local _ .vmem, ⟨4, _⟩ => ⟨S16x1024, .f32⟩
  | .local _ .vmem, ⟨5, _⟩ => ⟨S1024x1024, .f32⟩
  | .local _ .vmem, ⟨6, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S16x128_S16x128_0_0 : ∀ a, (![0, 0] : Fin 2 → Nat) a + S16x128.size a ≤ S16x128.size a
  h_S16x128 : 0 < S16x128.numel
  inb_S1024x128_S1024x128_0_0 : ∀ a, (![0, 0] : Fin 2 → Nat) a + S1024x128.size a ≤ S1024x128.size a
  h_S1024x128 : 0 < S1024x128.numel
  shapeCasts_S16x128_S16x1x128 : S16x128.ShapeCasts S16x1x128
  shapeCasts_S1024x128_S1x1024x128 : S1024x128.ShapeCasts S1x1024x128
  broadcasts_S16x1x128_S16x1024x128 : S16x1x128.Broadcasts S16x1024x128
  broadcasts_S1x1024x128_S16x1024x128 : S1x1024x128.Broadcasts S16x1024x128
  reduces_S16x1024x128_S16x1024 : S16x1024x128.Reduces [2] S16x1024
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  bcast_S_S1x4 : S_.BroadcastsInDim S1x4 (![] : Fin 0 → Fin S1x4.rank)
  bcast_S4_S1x4_1 : S4.BroadcastsInDim S1x4 (![1] : Fin 1 → Fin S1x4.rank)
  shapeCasts_S1x4_S4 : S1x4.ShapeCasts S4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S1024x128.size a
  hwx0_0 : ∀ i : grid0.Coords, EltTy.bits .f32 = 32 ∨ (Rect.block (s := S1024x128) S16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S1024x1024.size a
  hwx0_2 : ∀ i : grid0.Coords, EltTy.bits .f32 = 32 ∨ (Rect.block (s := S1024x1024) S16x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

abbrev win0_0 : Pipeline.Window sig grid0 :=
  Pipeline.Window.ofSpec (Memref.whole main_arg0) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x128 : Shape := ⟨2, ![1024, 128]⟩
abbrev S1x4 : Shape := ⟨2, ![1, 4]⟩
abbrev S4 : Shape := ⟨1, ![4]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1x4, .f32⟩
  | .hbm, ⟨3, _⟩ => ⟨S4, .f32⟩
  | .hbm, ⟨4, _⟩ => ⟨S1024x1x128, .f32⟩
  | .hbm, ⟨5, _⟩ => ⟨S1x1024x128, .f32⟩
  | .hbm, ⟨6, _⟩ => ⟨S1024x1024x128, .f32⟩
  | .hbm, ⟨7, _⟩ => ⟨S1024x1024x128, .f32⟩
  | .hbm, ⟨8, _⟩ => ⟨S1024x1024x128, .f32⟩
  | .hbm, ⟨9, _⟩ => ⟨S1024x1024x128, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024x1, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S_, .f32⟩
  | .hbm, ⟨50, _⟩ => ⟨S_, .f32⟩
  | .hbm, ⟨51, _⟩ => ⟨S1x4, .f32⟩
  | .hbm, ⟨52, _⟩ => ⟨S1x4, .f32⟩
  | .hbm, ⟨53, _⟩ => ⟨S1x4, .f32⟩
  | .hbm, ⟨54, _⟩ => ⟨S1x4, .f32⟩
  | .hbm, ⟨55, _⟩ => ⟨S4, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  h_S_ : 0 < S_.numel
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_
  bcast_S_S1024x1024 : S_.BroadcastsInDim S1024x1024 (![] : Fin 0 → Fin S1024x1024.rank)
  bcast_S_S1x4 : S_.BroadcastsInDim S1x4 (![] : Fin 0 → Fin S1x4.rank)
  bcast_S4_S1x4_1 : S4.BroadcastsInDim S1x4 (![1] : Fin 1 → Fin S1x4.rank)
  shapeCasts_S1x4_S4 : S1x4.ShapeCasts S4

variable [Facts₀]

class Facts : Prop extends Facts₀ where

variable [Facts]
-- ==== Proof.PairReads.lean ====
/-
  Reading a table of pairwise differences at an index.

  From `x` of extents a × c and `y` of extents b × c, the table with entry (p, q, d) built from
  `x (p, d)` and `y (q, d)` arises by viewing `x` as a × 1 × c and `y` as 1 × b × c and broadcasting
  both to a × b × c.  A sum over the last axis, read at (p, q), ranges over d < c.
-/
import Idealize.ShloMosaic.PureOps.Ideal.Laws
import Idealize.ShloMosaic.PureOps.Reduce
import Idealize.ShloMosaic.Lib.ValueIdx
import Idealize.ShloMosaic.Lib.Pipeline.Value

noncomputable section

namespace Cert.Reads

open Idealize.ShloMosaic Idealize.ShloMosaic.ValueIdx

variable {a b c : ℕ} {α : Type}

/-- The pair (p, q) with the last coordinate `k` put back is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext e; apply Fin.ext
  fin_cases e <;> rfl

/-- A sum over the last axis, at (p, q). -/
theorem lastSum (v : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = 0x00000000#32) (p : Fin a) (q : Fin b) :
    multiReduction .add [2] ⟨2, ![a, b]⟩ v 0x00000000#32 h hφ hacc (ix2 p q) = ∑ d : Fin c, v (ix3 p q d) :=
  (Ideal.multiReduction_add_single v 0x00000000#32 h hφ hacc (ix2 p q)).trans
    (Finset.sum_congr rfl fun k _ => congrArg v (lift_last h p q k))

/-- The first family spread over the middle axis: at (p, q, d) it is `x (p, d)`. -/
theorem spreadFirst (x : (⟨2, ![a, c]⟩ : Shape).Idx → α) (hc : (⟨2, ![a, c]⟩ : Shape).ShapeCasts ⟨3, ![a, 1, c]⟩)
    (hb : (⟨3, ![a, 1, c]⟩ : Shape).Broadcasts ⟨3, ![a, b, c]⟩) (p : Fin a) (q : Fin b) (d : Fin c) :
    broadcastTo ⟨3, ![a, b, c]⟩ (shapeCast ⟨3, ![a, 1, c]⟩ x hc) hb (ix3 p q d) = x (ix2 p d) := by
  refine (broadcastTo_apply _ hb (ix3 p q d) (ix3 p (0 : Fin 1) d) fun ax => ?_).trans ?_
  · match ax with
    | ⟨0, _⟩ =>
      show p.val = if a = 1 then 0 else p.val
      split
      · have := p.isLt; omega
      · rfl
    | ⟨1, _⟩ => rfl
    | ⟨2, _⟩ =>
      show d.val = if c = 1 then 0 else d.val
      split
      · have := d.isLt; omega
      · rfl
  · exact shapeCast_apply x hc _ _ (by
      rw [Shape.rowMajor_val_three, Shape.rowMajor_val_two]
      show p.val * c + d.val = (p.val * 1 + 0) * c + d.val
      rw [Nat.mul_one, Nat.add_zero])

/-- The second family spread over the first axis: at (p, q, d) it is `y (q, d)`. -/
theorem spreadSecond (y : (⟨2, ![b, c]⟩ : Shape).Idx → α) (hc : (⟨2, ![b, c]⟩ : Shape).ShapeCasts ⟨3, ![1, b, c]⟩)
    (hb : (⟨3, ![1, b, c]⟩ : Shape).Broadcasts ⟨3, ![a, b, c]⟩) (p : Fin a) (q : Fin b) (d : Fin c) :
    broadcastTo ⟨3, ![a, b, c]⟩ (shapeCast ⟨3, ![1, b, c]⟩ y hc) hb (ix3 p q d) = y (ix2 q d) := by
  refine (broadcastTo_apply _ hb (ix3 p q d) (ix3 (0 : Fin 1) q d) fun ax => ?_).trans ?_
  · match ax with
    | ⟨0, _⟩ => rfl
    | ⟨1, _⟩ =>
      show q.val = if b = 1 then 0 else q.val
      split
      · have := q.isLt; omega
      · rfl
    | ⟨2, _⟩ =>
      show d.val = if c = 1 then 0 else d.val
      split
      · have := d.isLt; omega
      · rfl
  · exact shapeCast_apply y hc _ _ (by
      rw [Shape.rowMajor_val_three, Shape.rowMajor_val_two]
      show q.val * c + d.val = (0 * b + q.val) * c + d.val
      rw [Nat.zero_mul, Nat.zero_add])

end Cert.Reads

end
-- ==== Proof.KernelScore.lean ====
/-
  What the first kernel stores, entry by entry: for a block of 16 rows of the first family and all 1024
  rows of the second, entry (r, j) is zero minus the sum over the 128 coordinates of |x (r, d) − y (j, d)|,
  that is, minus the ℓ¹ distance of the two rows.
-/
import proofs.«167909_j23055384445147_1_alg».proof.Proof.Gen.KernelIdeal.Skeleton
import proofs.«167909_j23055384445147_1_alg».proof.Proof.PairReads
import Idealize.ShloMosaic.Lib.ValueIdx
import Idealize.ShloMosaic.PureOps.Ideal.Laws

noncomputable section

namespace Cert.KernelIdeal.Score

open Cert.KernelIdeal Cert.KernelIdeal.Gen Idealize.ShloMosaic Idealize.ShloMosaic.ValueIdx

/-- The stored block at (r, j): minus the ℓ¹ distance of row `r` of the loaded block `x0` and row `j` of `x1`. -/
theorem pay_apply (x0 : Vec Ideal S16x128 .f32) (x1 : Vec Ideal S1024x128 .f32) (r : Fin 16) (j : Fin 1024) :
    k0_pay1 (F := Ideal) x0 x1 (ix2 r j)
      = -(∑ d : Fin 128, max (x0 (ix2 r d) - x1 (ix2 j d)) (-(x0 (ix2 r d) - x1 (ix2 j d)))) := by
  unfold k0_pay1
  show Ideal.ofBits .f32 0x00000000#32
      - multiReduction .add [2] S16x1024 (absf (subf (broadcastTo S16x1024x128 (shapeCast S16x1x128 x0 shapeCasts_S16x128_S16x1x128) broadcasts_S16x1x128_S16x1024x128)
          (broadcastTo S16x1024x128 (shapeCast S1x1024x128 x1 shapeCasts_S1024x128_S1x1024x128) broadcasts_S1x1024x128_S16x1024x128)))
        0x00000000#32 reduces_S16x1024x128_S16x1024 (.inl rfl) rfl (ix2 r j) = _
  rw [Ideal.ofBits_zero_f32, zero_sub, Cert.Reads.lastSum]
  refine congrArg Neg.neg (Finset.sum_congr rfl fun d _ => ?_)
  show max (broadcastTo S16x1024x128 (shapeCast S16x1x128 x0 shapeCasts_S16x128_S16x1x128) broadcasts_S16x1x128_S16x1024x128 (ix3 r j d)
        - broadcastTo S16x1024x128 (shapeCast S1x1024x128 x1 shapeCasts_S1024x128_S1x1024x128) broadcasts_S1x1024x128_S16x1024x128 (ix3 r j d))
      (-(broadcastTo S16x1024x128 (shapeCast S16x1x128 x0 shapeCasts_S16x128_S16x1x128) broadcasts_S16x1x128_S16x1024x128 (ix3 r j d)
        - broadcastTo S16x1024x128 (shapeCast S1x1024x128 x1 shapeCasts_S1024x128_S1x1024x128) broadcasts_S1x1024x128_S16x1024x128 (ix3 r j d))) = _
  rw [Cert.Reads.spreadFirst, Cert.Reads.spreadSecond]

end Cert.KernelIdeal.Score

end
-- ==== Proof.Reads.lean ====
/-
  Reading the reductions and the keep-dimension broadcasts of a matrix at an index, over the extended reals.

  For a matrix `v` of extents a × b: a reduction over the second axis, read at row `p`, ranges over the
  entries `v (p, q)`, `q < b`; over the first axis, read at column `q`, over `v (p, q)`, `p < a`.  A
  maximum so read is the fold of max from the accumulator's value, a sum is the finite sum.  A sum over
  every axis of the matrix viewed as 1 × a × b is the double sum over (p, q).  A vector of row values
  cast to a × 1 and broadcast along the rows, read at (p, q), is the value of row `p`; a vector of
  column values cast to 1 × b and broadcast down the columns is the value of column `q`.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.Reads

open Idealize.ShloMosaic Idealize.ShloMosaic.ValueIdx

variable {a b : ℕ}

/-! ## The reduced index with a coordinate put back -/

/-- Row `p` with column coordinate `k` put back is (p, k). -/
theorem lift_col (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Column `q` with row coordinate `k` put back is (k, q). -/
theorem lift_row (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-! ## Maxima -/

/-- A row's maximum: the fold of max over the row's entries. -/
theorem rowMax (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  have hf : (v ∘ h.lift (ix1 p)) = fun k : Fin b => v (ix2 p k) := funext fun k => congrArg v (lift_col h p k)
  exact congrArg (fun f => Finset.fold max (Ideal.ofBits .f32 0xFF800000#32) f (Finset.univ : Finset (Fin b))) hf

/-- A column's maximum: the fold of max over the column's entries. -/
theorem colMax (v : FVec Ideal ⟨2, ![a, b]⟩ .f32)
    (h : (⟨2, ![a, b]⟩ : Shape).Reduces [0] (⟨1, ![b]⟩ : Shape)) (hφ : FKind.Formats .f32)
    (hacc : (0xFF800000#32 : BitVec 32) = 0xFF800000#32) (q : Fin b) :
    multiReduction .maximumf [0] ⟨1, ![b]⟩ v 0xFF800000#32 h hφ hacc (ix1 q)
      = (Finset.univ : Finset (Fin a)).fold max (Ideal.ofBits .f32 0xFF800000#32) (fun p => v (ix2 p q)) := by
  refine (Ideal.multiReduction_maximumf_single v 0xFF800000#32 h hφ hacc (ix1 q)).trans ?_
  have hf : (v ∘ h.lift (ix1 q)) = fun k : Fin a => v (ix2 k q) := funext fun k => congrArg v (lift_row h q k)
  exact congrArg (fun f => Finset.fold max (Ideal.ofBits .f32 0xFF800000#32) f (Finset.univ : Finset (Fin a))) hf

/-! ## Sums -/

/-- A row's sum. -/
theorem rowSum (v : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ v 0x00000000#32 h hφ hacc (ix1 p) = ∑ q : Fin b, v (ix2 p q) :=
  (Ideal.multiReduction_add_single v 0x00000000#32 h hφ hacc (ix1 p)).trans
    (Finset.sum_congr rfl fun k _ => congrArg v (lift_col h p k))

/-- A column's sum. -/
theorem colSum (v : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction .add [0] ⟨1, ![b]⟩ v 0x00000000#32 h hφ hacc (ix1 q) = ∑ p : Fin a, v (ix2 p q) :=
  (Ideal.multiReduction_add_single v 0x00000000#32 h hφ hacc (ix1 q)).trans
    (Finset.sum_congr rfl fun k _ => congrArg v (lift_row h q k))

/-- The sum over every entry, taken of the matrix viewed as 1 × a × b, whatever the one result index. -/
theorem totalSum (v : FVec Ideal ⟨2, ![a, b]⟩ .f32) (hc : (⟨2, ![a, b]⟩ : Shape).ShapeCasts ⟨3, ![1, a, b]⟩)
    (h : (⟨3, ![1, a, b]⟩ : Shape).Reduces [1, 2] (⟨1, ![1]⟩ : Shape)) (hφ : FKind.Formats .f32)
    (hacc : (0x00000000#32 : BitVec 32) = 0x00000000#32) (j : (⟨1, ![1]⟩ : Shape).Idx) :
    multiReduction .add [1, 2] ⟨1, ![1]⟩ (shapeCast ⟨3, ![1, a, b]⟩ v hc) 0x00000000#32 h hφ hacc j
      = ∑ p : Fin a, ∑ q : Fin b, v (ix2 p q) := by
  refine (Ideal.multiReduction_add_total (shapeCast ⟨3, ![1, a, b]⟩ v hc) 0x00000000#32 h (fun c => by fin_cases c; rfl) hφ hacc j).trans ?_
  unfold shapeCast
  rw [Equiv.sum_comp (Shape.reshapeEquiv hc) v, sum_idx2]

/-! ## Keep-dimension broadcasts -/

/-- One value per row, cast to a column and broadcast along the rows: at (p, q) the value of row `p`. -/
theorem alongRows (r : (⟨1, ![a]⟩ : Shape).Idx → EReal) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ r hc) hb (ix2 p q) = r (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply r hc _ _ (by
      rw [Shape.rowMajor_val_two, Shape.rowMajor_val_one]
      show p.val = p.val * 1 + 0
      omega)

/-- One value per column, cast to a row and broadcast down the columns: at (p, q) the value of column `q`. -/
theorem downCols (r : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ r hc) hb (ix2 p q) = r (ix1 q) :=
  (broadcastTo_1b_ab_apply _ hb p q).trans (shapeCast_a_1a_apply r hc 0 q)

end Cert.Reads

end
-- ==== Proof.Spec.lean ====
/-
  The mathematics both programs compute, over the extended reals.

  From two families of 1024 vectors of length 128, the SCORE of a pair (i, j) is minus the ℓ¹ distance
  of row i of the first family and row j of the second.  A score matrix is softened twice: along each
  row (the entries of a row divided, after subtracting the row's largest entry and exponentiating, by
  their sum) and along each column likewise.  The two soft alignments a, b are MIXED as a + b − a·b,
  the mixture is divided by its total mass, and the ALIGNED SCORE is the sum of the normalised
  mixture against the scores.  The four outputs are that one number scaled by θ and shifted by β.

  A row's (column's) largest entry is taken as the fold of max from a starting value `b` (both
  programs start from the same word, which denotes −∞; the statement below never needs its value).
-/
import Idealize.ShloMosaic.PureOps.Ideal
import Idealize.ShloMosaic.PureOps.Ideal.Laws
import Idealize.ShloMosaic.Lib.ValueIdx

noncomputable section

namespace Cert.Align

open Idealize.ShloMosaic

/-- Minus the ℓ¹ distance of row `i` of `x` and row `j` of `y` (|a| is max a (−a)). -/
def score (x y : Fin 1024 → Fin 128 → EReal) (i j : Fin 1024) : EReal :=
  -(∑ d : Fin 128, max (x i d - y j d) (-(x i d - y j d)))

section Soften
variable (b : EReal) (s : Fin 1024 → Fin 1024 → EReal)

/-- The largest entry of row `i`, from `b`. -/
def rowTop (i : Fin 1024) : EReal := (Finset.univ : Finset (Fin 1024)).fold max b (fun j => s i j)
/-- The largest entry of column `j`, from `b`. -/
def colTop (j : Fin 1024) : EReal := (Finset.univ : Finset (Fin 1024)).fold max b (fun i => s i j)
/-- exp (s − its row's top). -/
def rowWeight (i j : Fin 1024) : EReal := Ideal.exp (s i j - rowTop b s i)
/-- exp (s − its column's top). -/
def colWeight (i j : Fin 1024) : EReal := Ideal.exp (s i j - colTop b s j)
/-- The softmax along rows. -/
def rowSoft (i j : Fin 1024) : EReal := Ideal.div (rowWeight b s i j) (∑ j' : Fin 1024, rowWeight b s i j')
/-- The softmax along columns. -/
def colSoft (i j : Fin 1024) : EReal := Ideal.div (colWeight b s i j) (∑ i' : Fin 1024, colWeight b s i' j)
/-- a + b − a·b of the two soft alignments. -/
def mix (i j : Fin 1024) : EReal := rowSoft b s i j + colSoft b s i j - rowSoft b s i j * colSoft b s i j
/-- The mixture's total mass. -/
def mass : EReal := ∑ i : Fin 1024, ∑ j : Fin 1024, mix b s i j
/-- The sum of (mixture / mass) · score. -/
def aligned : EReal := ∑ i : Fin 1024, ∑ j : Fin 1024, Ideal.div (mix b s i j) (mass b s) * s i j

end Soften

/-- The four outputs. -/
def logits (b : EReal) (x y : Fin 1024 → Fin 128 → EReal) (θ β : Fin 4 → EReal) (k : Fin 4) : EReal :=
  aligned b (score x y) * θ k + β k

end Cert.Align

end
-- ==== Proof.KernelTail.lean ====
/-
  What the second kernel stores: from the whole score matrix `V` it computes the row softmax and the column
  softmax (each entry's exponential after subtracting its row's, respectively column's, largest entry,
  divided by the sum of those exponentials along the row, respectively column), mixes them as a + b − a·b,
  divides by the mixture's total mass, and sums the product with the scores.  Stage by stage, each vector of
  the body is read at an entry (p, q) as the corresponding quantity of the specification.
-/
import proofs.«167909_j23055384445147_1_alg».proof.Proof.Gen.KernelIdeal.Skeleton
import proofs.«167909_j23055384445147_1_alg».proof.Proof.Reads
import proofs.«167909_j23055384445147_1_alg».proof.Proof.Spec
import Idealize.ShloMosaic.Lib.ValueIdx
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.ValueIdx
open Cert (Align.rowTop Align.colTop Align.rowWeight Align.colWeight Align.rowSoft Align.colSoft Align.mix Align.mass Align.aligned)

/-- The value both maxima start from (the word both programs print for it). -/
abbrev bot : EReal := Ideal.ofBits .f32 0xFF800000#32

variable (V : FVec Ideal S1024x1024 .f32)

/-- The score matrix by coordinates. -/
abbrev mat : Fin 1024 → Fin 1024 → EReal := fun p q => V (ix2 p q)

/-! ## Along the rows -/

/-- Each row's largest entry, spread along the row. -/
def rowTopV : FVec Ideal S1024x1024 .f32 :=
  broadcastTo S1024x1024 (shapeCast S1024x1 (multiReduction .maximumf [1] S1024 V 0xFF800000#32 reduces_S1024x1024_S1024 (.inl rfl) rfl) shapeCasts_S1024_S1024x1) broadcasts_S1024x1_S1024x1024

theorem rowTopV_apply (p q : Fin 1024) : rowTopV V (ix2 p q) = Align.rowTop bot (mat V) p := by
  unfold rowTopV Align.rowTop
  rw [Cert.Reads.alongRows, Cert.Reads.rowMax]

/-- exp (entry − its row's largest). -/
def rowWV : FVec Ideal S1024x1024 .f32 := exp (subf V (rowTopV V))

theorem rowWV_apply (p q : Fin 1024) : rowWV V (ix2 p q) = Align.rowWeight bot (mat V) p q := by
  unfold rowWV Align.rowWeight
  show Ideal.exp (V (ix2 p q) - rowTopV V (ix2 p q)) = _
  rw [rowTopV_apply]

/-- The row softmax. -/
def rowSoftV : FVec Ideal S1024x1024 .f32 :=
  divf (rowWV V) (broadcastTo S1024x1024 (shapeCast S1024x1 (multiReduction .add [1] S1024 (rowWV V) 0x00000000#32 reduces_S1024x1024_S1024 (.inl rfl) rfl) shapeCasts_S1024_S1024x1) broadcasts_S1024x1_S1024x1024)

theorem rowSoftV_apply (p q : Fin 1024) : rowSoftV V (ix2 p q) = Align.rowSoft bot (mat V) p q := by
  unfold rowSoftV Align.rowSoft
  show Ideal.div (rowWV V (ix2 p q)) (broadcastTo S1024x1024 (shapeCast S1024x1 _ shapeCasts_S1024_S1024x1) broadcasts_S1024x1_S1024x1024 (ix2 p q)) = _
  rw [Cert.Reads.alongRows, Cert.Reads.rowSum, rowWV_apply]
  exact congrArg _ (Finset.sum_congr rfl fun q' _ => rowWV_apply V p q')

/-! ## Down the columns -/

/-- Each column's largest entry, spread down the column. -/
def colTopV : FVec Ideal S1024x1024 .f32 :=
  broadcastTo S1024x1024 (shapeCast S1x1024 (multiReduction .maximumf [0] S1024 V 0xFF800000#32 reduces_S1024x1024_S1024_2 (.inl rfl) rfl) shapeCasts_S1024_S1x1024) broadcasts_S1x1024_S1024x1024

theorem colTopV_apply (p q : Fin 1024) : colTopV V (ix2 p q) = Align.colTop bot (mat V) q := by
  unfold colTopV Align.colTop
  rw [Cert.Reads.downCols, Cert.Reads.colMax]

/-- exp (entry − its column's largest). -/
def colWV : FVec Ideal S1024x1024 .f32 := exp (subf V (colTopV V))

theorem colWV_apply (p q : Fin 1024) : colWV V (ix2 p q) = Align.colWeight bot (mat V) p q := by
  unfold colWV Align.colWeight
  show Ideal.exp (V (ix2 p q) - colTopV V (ix2 p q)) = _
  rw [colTopV_apply]

/-- The column softmax. -/
def colSoftV : FVec Ideal S1024x1024 .f32 :=
  divf (colWV V) (broadcastTo S1024x1024 (shapeCast S1x1024 (multiReduction .add [0] S1024 (colWV V) 0x00000000#32 reduces_S1024x1024_S1024_2 (.inl rfl) rfl) shapeCasts_S1024_S1x1024) broadcasts_S1x1024_S1024x1024)

theorem colSoftV_apply (p q : Fin 1024) : colSoftV V (ix2 p q) = Align.colSoft bot (mat V) p q := by
  unfold colSoftV Align.colSoft
  show Ideal.div (colWV V (ix2 p q)) (broadcastTo S1024x1024 (shapeCast S1x1024 _ shapeCasts_S1024_S1x1024) broadcasts_S1x1024_S1024x1024 (ix2 p q)) = _
  rw [Cert.Reads.downCols, Cert.Reads.colSum, colWV_apply]
  exact congrArg _ (Finset.sum_congr rfl fun p' _ => colWV_apply V p' q)

/-! ## The mixture, its mass, the aligned score -/

/-- a + b − a·b. -/
def mixV : FVec Ideal S1024x1024 .f32 := subf (addf (rowSoftV V) (colSoftV V)) (mulf (rowSoftV V) (colSoftV V))

theorem mixV_apply (p q : Fin 1024) : mixV V (ix2 p q) = Align.mix bot (mat V) p q := by
  unfold mixV Align.mix
  show rowSoftV V (ix2 p q) + colSoftV V (ix2 p q) - rowSoftV V (ix2 p q) * colSoftV V (ix2 p q) = _
  rw [rowSoftV_apply, colSoftV_apply]

/-- The one entry of a total sum, as the body extracts it. -/
def totalOf (X : FVec Ideal S1024x1024 .f32) : EReal :=
  extractAt ![0, 0, 0] (shapeCast S1x1x1 (multiReduction .add [1, 2] S1 (shapeCast S1x1024x1024 X shapeCasts_S1024x1024_S1x1024x1024) 0x00000000#32 reduces_S1x1024x1024_S1 (.inl rfl) rfl) shapeCasts_S1_S1x1x1) inpos_S1x1x1_p0_0_0

theorem totalOf_eq (X : FVec Ideal S1024x1024 .f32) : totalOf X = ∑ p : Fin 1024, ∑ q : Fin 1024, X (ix2 p q) := by
  unfold totalOf extractAt
  show multiReduction .add [1, 2] S1 (shapeCast S1x1024x1024 X shapeCasts_S1024x1024_S1x1024x1024) 0x00000000#32 reduces_S1x1024x1024_S1 (.inl rfl) rfl (Shape.reshapeEquiv shapeCasts_S1_S1x1x1 _) = _
  rw [Cert.Reads.totalSum]

theorem mass_eq : totalOf (mixV V) = Align.mass bot (mat V) := by
  rw [totalOf_eq]; unfold Align.mass
  exact Finset.sum_congr rfl fun p _ => Finset.sum_congr rfl fun q _ => mixV_apply V p q

/-- (mixture / mass) · score. -/
def weightedV : FVec Ideal S1024x1024 .f32 := mulf (divf (mixV V) (broadcast S1024x1024 (totalOf (mixV V)))) V

theorem weightedV_apply (p q : Fin 1024) :
    weightedV V (ix2 p q) = Ideal.div (Align.mix bot (mat V) p q) (Align.mass bot (mat V)) * V (ix2 p q) := by
  unfold weightedV
  show Ideal.div (mixV V (ix2 p q)) (totalOf (mixV V)) * V (ix2 p q) = _
  rw [mixV_apply, mass_eq]

theorem aligned_eq : totalOf (weightedV V) = Align.aligned bot (mat V) := by
  rw [totalOf_eq]; unfold Align.aligned
  exact Finset.sum_congr rfl fun p _ => Finset.sum_congr rfl fun q _ => weightedV_apply V p q

/-! ## The stored block -/

/-- The body's stored value is the aligned score of the loaded matrix, at its one entry. -/
theorem pay_eq (V0 : Vec Ideal S1024x1024 .f32) :
    k1_pay1 (F := Ideal) V0 = broadcast S1x1 (totalOf (weightedV (shapeCast S1024x1024 V0 shapeCasts_S1024x1024_S1024x1024))) := rfl

theorem pay_apply (V0 : Vec Ideal S1024x1024 .f32) (i : S1x1.Idx) :
    k1_pay1 (F := Ideal) V0 i = Align.aligned bot (fun p q => V0 (ix2 p q)) := by
  rw [pay_eq]
  show totalOf (weightedV (shapeCast S1024x1024 V0 shapeCasts_S1024x1024_S1024x1024)) = _
  rw [shapeCast_self, aligned_eq]

end Cert.KernelIdeal.Tail

end
-- ==== Proof.KernelValue.lean ====
/-
  The kernel's result as a function of its arguments.

  Region 0 writes the score matrix block of rows by block of rows: point t stores rows 16·t … 16·t + 15, each
  entry minus the ℓ¹ distance of a row of the first family (read from block t of it) and a row of the second
  (read whole at every point); the 64 blocks tile the 1024 × 1024 array, so it ends holding every score.
  Region 1 reads that array whole at its one point and stores the aligned score into a 1 × 1 array.  The host
  operations after it scale that number by θ and shift it by β.
-/
import proofs.«167909_j23055384445147_1_alg».proof.Proof.Gen.KernelIdeal.Frame
import proofs.«167909_j23055384445147_1_alg».proof.Proof.KernelScore
import proofs.«167909_j23055384445147_1_alg».proof.Proof.KernelTail
import proofs.«167909_j23055384445147_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The two families as launched. -/
abbrev xs (c : Dev nD) : Vec Ideal S1024x128 .f32 := m ((c : Thread nD τ).loc main_arg0)
abbrev ys (c : Dev nD) : Vec Ideal S1024x128 .f32 := m ((c : Thread nD τ).loc main_arg1)

/-- Every pair's score. -/
def scores (c : Dev nD) : Vec Ideal S1024x1024 .f32 :=
  fun i => Cert.Align.score (fun p d => xs m c (ix2 p d)) (fun q d => ys m c (ix2 q d)) (i 0) (i 1)

/-! ## Region 0 -/

/-- The stored block as one function of its index. -/
theorem pay_fun (x0 : Vec Ideal S16x128 .f32) (x1 : Vec Ideal S1024x128 .f32) :
    k0_pay1 (F := Ideal) x0 x1
      = fun j : S16x1024.Idx => -(∑ d : Fin 128, max (x0 (ix2 (j 0) d) - x1 (ix2 (j 1) d)) (-(x0 (ix2 (j 0) d) - x1 (ix2 (j 1) d)))) := by
  funext j
  obtain ⟨r, q, rfl⟩ : ∃ (r : Fin 16) (q : Fin 1024), j = ix2 r q := ⟨j 0, j 1, eq_ix2 j⟩
  exact Cert.KernelIdeal.Score.pay_apply x0 x1 r q

/-- The printed index maps over the grid: the first family's block and the output's move with the point, the second
    family's stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the score matrix. -/
theorem flushed0 (c : Dev nD) (t : Fin cfg0.N) :
    (dat0 (V0 m ρ) c).flushed 2 t = ((cfg0.win 2).blk t).view.read (Elt Ideal) (scores m c) := by
  show (cfg0.win 2).cut (grid0.coords t) ((dat0 (V0 m ρ) c).after 2 t) = _
  rw [after0_2]
  unfold out0_2
  rw [View.canon_unit_zero hz]
  simp only [View.ld_unit_zero (S := S16x128) hz, View.ld_unit_zero (S := S1024x128) hz]
  obtain ⟨e0, e1, e2, e3, e4, e5⟩ := idx_facts0 t
  funext j
  refine (congrFun (pay_fun (iblk0 (V0 m ρ) c 0 t) (iblk0 (V0 m ρ) c 1 t)) j).trans ?_
  show -(∑ d : Fin 128, max (xs m c (((cfg0.win 0).blk t).view.emb (ix2 (j 0) d)) - ys m c (((cfg0.win 1).blk t).view.emb (ix2 (j 1) d)))
          (-(xs m c (((cfg0.win 0).blk t).view.emb (ix2 (j 0) d)) - ys m c (((cfg0.win 1).blk t).view.emb (ix2 (j 1) d)))))
      = -(∑ d : Fin 128, max (xs m c (ix2 ((((cfg0.win 2).blk t).view.emb j) 0) d) - ys m c (ix2 ((((cfg0.win 2).blk t).view.emb j) 1) d))
          (-(xs m c (ix2 ((((cfg0.win 2).blk t).view.emb j) 0) d) - ys m c (ix2 ((((cfg0.win 2).blk t).view.emb j) 1) d))))
  have hx : ∀ d : Fin 128, ((cfg0.win 0).blk t).view.emb (ix2 (j 0) d) = ix2 ((((cfg0.win 2).blk t).view.emb j) 0) d := by
    intro d; funext a; apply Fin.ext
    match a with
    | ⟨0, _⟩ => show win0_0.index t (0 : Fin 2) * 16 + 1 * (j 0).val = win0_2.index t (0 : Fin 2) * 16 + 1 * (j 0).val; omega
    | ⟨1, _⟩ => show win0_0.index t (1 : Fin 2) * 128 + 1 * d.val = d.val; omega
  have hy : ∀ d : Fin 128, ((cfg0.win 1).blk t).view.emb (ix2 (j 1) d) = ix2 ((((cfg0.win 2).blk t).view.emb j) 1) d := by
    intro d; funext a; apply Fin.ext
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 128 + 1 * d.val = d.val; omega
  exact congrArg Neg.neg (Finset.sum_congr rfl fun d _ => by rw [hx d, hy d]; exact rfl)

/-- An index is in point `t`'s block iff each coordinate is in the block's range. -/
theorem mem_blk0 (t : Fin cfg0.N) (i : S1024x1024.Idx) :
    i ∈ ((cfg0.win 2).blk t).view.set ↔ ∀ a : Fin 2, win0_2.index t a * S16x1024.size a ≤ (i a).val ∧ (i a).val < win0_2.index t a * S16x1024.size a + S16x1024.size a := by
  show i ∈ ((View.whole main_v0).slice (win0_2.rect t)).set ↔ _
  rw [View.set_slice_whole, Rect.mem_set_unit]
  exact Iff.rfl

/-- The 64 blocks of 16 rows tile the array. -/
theorem cover0 (i : S1024x1024.Idx) : ∃ t : Fin cfg0.N, (cfg0.win 2).flush t = true ∧ i ∈ ((cfg0.win 2).blk t).view.set := by
  have hi0 : (i 0).val < 1024 := (i 0).isLt
  have hi1 : (i 1).val < 1024 := (i 1).isLt
  refine ⟨⟨(i 0).val / 16, by rw [show cfg0.N = 64 from N_0]; omega⟩, flush0_2 _, ?_⟩
  rw [mem_blk0]
  obtain ⟨e0, e1, e2, e3, e4, e5⟩ := idx_facts0 ⟨(i 0).val / 16, by rw [show cfg0.N = 64 from N_0]; omega⟩
  intro a
  match a with
  | ⟨0, _⟩ => show win0_2.index _ (0 : Fin 2) * 16 ≤ (i 0).val ∧ (i 0).val < win0_2.index _ (0 : Fin 2) * 16 + 16; rw [e4]; show (i 0).val / 16 * 16 ≤ (i 0).val ∧ (i 0).val < (i 0).val / 16 * 16 + 16; omega
  | ⟨1, _⟩ => show win0_2.index _ (1 : Fin 2) * 1024 ≤ (i 1).val ∧ (i 1).val < win0_2.index _ (1 : Fin 2) * 1024 + 1024; rw [e5]; omega

/-- After region 0 its output array holds every score. -/
theorem final0 (c : Dev nD) : (dat0 (V0 m ρ) c).arrAt 2 cfg0.N = scores m c :=
  (dat0 (V0 m ρ) c).arrAt_eq_of_cover 2 (scores m c) (fun t _ => flushed0 m ρ c t) cover0

/-! ## Region 1 -/

/-- Region 1 finds the score matrix in its input array. -/
theorem entry1 (c : Dev nD) : (V1 m ρ c main_v0 : Vec Ideal S1024x1024 .f32) = scores m c := by
  show W1 m ρ c (Proc.devRef .tc main_v0) = _
  exact (W1_arr m ρ c 2).trans (final0 m ρ c)

/-- Both windows of the one-point grid sit at block (0, 0). -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The aligned score of the launched families. -/
def alignedScore (c : Dev nD) : EReal :=
  Cert.Align.aligned Cert.KernelIdeal.Tail.bot (fun p q => scores m c (ix2 p q))

/-- What the one point writes back is the aligned score, in the array's one entry. -/
theorem flushed1 (c : Dev nD) (t : Fin cfg1.N) :
    (dat1 (V1 m ρ) c).flushed 1 t = ((cfg1.win 1).blk t).view.read (Elt Ideal) (fun _ : S1x1.Idx => alignedScore m c) := by
  show (cfg1.win 1).cut (grid1.coords t) ((dat1 (V1 m ρ) c).after 1 t) = _
  rw [after1_1]
  unfold out1_1
  rw [View.canon_unit_zero hz]
  simp only [View.ld_unit_zero (S := S1024x1024) hz]
  obtain ⟨e0, e1, e2, e3⟩ := idx_facts1 t
  funext j
  refine (Cert.KernelIdeal.Tail.pay_apply (iblk1 (V1 m ρ) c 0 t) j).trans ?_
  show Cert.Align.aligned Cert.KernelIdeal.Tail.bot (fun p q => iblk1 (V1 m ρ) c 0 t (ix2 p q)) = alignedScore m c
  unfold alignedScore
  have hb : ∀ p q : Fin 1024, iblk1 (V1 m ρ) c 0 t (ix2 p q) = scores m c (ix2 p q) := by
    intro p q
    show (V1 m ρ c main_v0 : Vec Ideal S1024x1024 .f32) (((cfg1.win 0).blk t).view.emb (ix2 p q)) = _
    have he : ((cfg1.win 0).blk t).view.emb (ix2 p q) = ix2 p q := by
      funext a; apply Fin.ext
      match a with
      | ⟨0, _⟩ => show win1_0.index t (0 : Fin 2) * 1024 + 1 * p.val = p.val; omega
      | ⟨1, _⟩ => show win1_0.index t (1 : Fin 2) * 1024 + 1 * q.val = q.val; omega
    rw [he]; exact congrFun (entry1 m ρ c) (ix2 p q)
  exact congrArg (Cert.Align.aligned Cert.KernelIdeal.Tail.bot) (funext fun p => funext fun q => hb p q)

/-- An index is in the one block iff each coordinate is in the block's range. -/
theorem mem_blk1 (t : Fin cfg1.N) (i : S1x1.Idx) :
    i ∈ ((cfg1.win 1).blk t).view.set ↔ ∀ a : Fin 2, win1_1.index t a * S1x1.size a ≤ (i a).val ∧ (i a).val < win1_1.index t a * S1x1.size a + S1x1.size a := by
  show i ∈ ((View.whole main_v1).slice (win1_1.rect t)).set ↔ _
  rw [View.set_slice_whole, Rect.mem_set_unit]
  exact Iff.rfl

/-- The one block is the whole 1 × 1 array. -/
theorem cover1 (i : S1x1.Idx) : ∃ t : Fin cfg1.N, (cfg1.win 1).flush t = true ∧ i ∈ ((cfg1.win 1).blk t).view.set := by
  have hi0 : (i 0).val < 1 := (i 0).isLt
  have hi1 : (i 1).val < 1 := (i 1).isLt
  refine ⟨t1_0, flush1_1 _, ?_⟩
  rw [mem_blk1]
  obtain ⟨e0, e1, e2, e3⟩ := idx_facts1 t1_0
  intro a
  match a with
  | ⟨0, _⟩ => show win1_1.index t1_0 (0 : Fin 2) * 1 ≤ (i 0).val ∧ (i 0).val < win1_1.index t1_0 (0 : Fin 2) * 1 + 1; omega
  | ⟨1, _⟩ => show win1_1.index t1_0 (1 : Fin 2) * 1 ≤ (i 1).val ∧ (i 1).val < win1_1.index t1_0 (1 : Fin 2) * 1 + 1; omega

/-- After region 1 its output array holds the aligned score. -/
theorem final1 (c : Dev nD) : (dat1 (V1 m ρ) c).arrAt 1 cfg1.N = fun _ : S1x1.Idx => alignedScore m c :=
  (dat1 (V1 m ρ) c).arrAt_eq_of_cover 1 (fun _ : S1x1.Idx => alignedScore m c) (fun t _ => flushed1 m ρ c t) cover1

/-! ## The host operations after the regions -/

/-- θ and β as launched. -/
abbrev θs (c : Dev nD) : Vec Ideal S1x4 .f32 := m ((c : Thread nD τ).loc main_arg2)
abbrev βs (c : Dev nD) : Vec Ideal S4 .f32 := m ((c : Thread nD τ).loc main_arg3)

/-- The four outputs of the launched arguments. -/
def outputs (c : Dev nD) : Vec Ideal S4 .f32 :=
  fun k => Cert.Align.logits Cert.KernelIdeal.Tail.bot (fun p d => xs m c (ix2 p d)) (fun q d => ys m c (ix2 q d))
    (fun q => θs m c (ix2 0 q)) (fun q => βs m c (ix1 q)) (k 0)

theorem exit_v1 (c : Dev nD) : (W2 m ρ c (Proc.devRef .tc main_v1) : Vec Ideal S1x1 .f32) = fun _ => alignedScore m c :=
  (W2_arr m ρ c 1).trans (final1 m ρ c)
theorem exit_arg2 (c : Dev nD) : (W2 m ρ c (Proc.devRef .tc main_arg2) : Vec Ideal S1x4 .f32) = θs m c :=
  (W2_of_ne m ρ c main_arg2 (by decide)).trans (W1_of_ne m ρ c main_arg2 (by decide))
theorem exit_arg3 (c : Dev nD) : (W2 m ρ c (Proc.devRef .tc main_arg3) : Vec Ideal S4 .f32) = βs m c :=
  (W2_of_ne m ρ c main_arg3 (by decide)).trans (W1_of_ne m ρ c main_arg3 (by decide))

/-- The result buffer after the last host operation. -/
theorem result_eq (c : Dev nD) : (W3 m ρ c (Proc.devRef .tc main_v7) : Vec Ideal S4 .f32) = outputs m c := by
  show StableHlo.after hostOps2 (W2 m ρ c) (Proc.devRef .tc main_v7) = _
  after_results
  show shapeCast S4 (addf (F := Ideal) (φ := .f32) (mulf (F := Ideal) (φ := .f32) (broadcastInDim S1x4 ![] bcast_S_S1x4
        (shapeCast S_ (W2 m ρ c (Proc.devRef .tc main_v1) : Vec Ideal S1x1 .f32) shapeCasts_S1x1_S_))
        (W2 m ρ c (Proc.devRef .tc main_arg2) : Vec Ideal S1x4 .f32))
      (broadcastInDim S1x4 ![1] bcast_S4_S1x4_1 (W2 m ρ c (Proc.devRef .tc main_arg3) : Vec Ideal S4 .f32))) shapeCasts_S1x4_S4 = outputs m c
  rw [exit_v1, exit_arg2, exit_arg3]
  funext k
  obtain ⟨q, rfl⟩ : ∃ q : Fin 4, k = ix1 q := ⟨k 0, eq_ix1 k⟩
  refine (shapeCast_1a_a_apply _ shapeCasts_S1x4_S4 q).trans ?_
  show alignedScore m c * θs m c (ix2 0 q) + broadcastInDim S1x4 ![1] bcast_S4_S1x4_1 (βs m c) (ix2 0 q) = _
  rw [broadcastInDim_apply ![1] bcast_S4_S1x4_1 (βs m c) (ix2 0 q) (ix1 q) (fun a => match a with
    | ⟨0, _⟩ => by show q.val = if (4 : Nat) = 1 then 0 else q.val; rw [if_neg (by decide)])]
  rfl

end Cert.KernelIdeal.Result

end
-- ==== Proof.RefValue.lean ====
/-
  The reference program's result, as the mathematics of the specification.

  The reference is read one operation at a time. Stage 7 is the score matrix: at (p, q) minus the sum over
  the 128 coordinates of |x p d − y q d|, the absolute value being max a (−a) and the sum's initial value
  the word of 0. The two max-reductions (along the rows and along the columns) are, at an index, the fold
  of max from their initial value over the reduced axis; the reference then takes one more maximum with
  that same initial value, which changes nothing because a fold of max from b is already at least b (so
  the value of the word is never needed). Subtracting the top, exponentiating, summing along the same
  axis (from the word of 0) and dividing gives the two soft alignments; they are mixed as a + b − a·b; the
  sum over all index pairs is the double sum over the two coordinates, which gives the mixture's mass and,
  after dividing by it and multiplying by the score, the aligned score; the four outputs scale it by θ and
  shift it by β. Every step is an equality of extended reals, read off the operations' definitions: no
  finiteness of any input is used.
-/
import proofs.«167909_j23055384445147_1_alg».proof.Proof.Gen.ReferenceIdeal.Read
import proofs.«167909_j23055384445147_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Read Idealize.ShloMosaic Idealize.ShloMosaic.ValueIdx

section Stages

variable (x0 x1 : (⟨S1024x128, .f32⟩ : BufTy).Contents (Elt Ideal))

/-- A family of 1024 vectors of length 128, by coordinates. -/
abbrev rowsOf (x : (⟨S1024x128, .f32⟩ : BufTy).Contents (Elt Ideal)) : Fin 1024 → Fin 128 → EReal :=
  fun i d => x (ix2 i d)

/-- The score matrix of the two families. -/
abbrev sc : Fin 1024 → Fin 1024 → EReal := Cert.Align.score (rowsOf x0) (rowsOf x1)

/-- The word both max-reductions start from, as an extended real. -/
abbrev bot32 : EReal := Ideal.ofBits .f32 0xFF800000#32

/-- Stage 7 at (p, q) is the score of the pair: minus the sum over the coordinates of |x p d − y q d|. -/
theorem v7_eq (p q : Fin 1024) :
    val_main_v7 (F := Ideal) x0 x1 (ix2 p q) = sc x0 x1 p q := by
  rw [val_main_v7_apply, val_main_v6_apply, val_main_cst_apply]
  simp only [Ideal.hostNegf_def, Ideal.negf_def, Ideal.ofBits_def, Ideal.ofBits_zero_f32, zero_add]
  unfold sc Cert.Align.score
  refine congrArg Neg.neg (Finset.sum_congr rfl fun k _ => ?_)
  rw [val_main_v5_apply, val_main_v4_apply, val_main_v2_apply, val_main_v0_apply, val_main_v3_apply,
    val_main_v1_apply]
  have e0 : idx_main_v0 (idx_main_v2 (idx_main_v6 (ix2 p q) k)) = ix2 p k := by
    funext a; match a with | ⟨0, _⟩ => rfl | ⟨1, _⟩ => rfl
  have e1 : idx_main_v1 (idx_main_v3 (idx_main_v6 (ix2 p q) k)) = ix2 q k := by
    funext a; match a with | ⟨0, _⟩ => rfl | ⟨1, _⟩ => rfl
  rw [e0, e1]
  rfl

/-! ## The two max-reductions at an index -/

theorem red_d1 : S1024x1024.Reduces [1] S1024 := by decide
theorem red_d0 : S1024x1024.Reduces [0] S1024 := by decide

/-- Row `p` with column `k` put back is (p, k). -/
theorem lift_d1 (p : Fin 1024) (k : Fin (S1024x1024.size 1)) :
    red_d1.lift (ix1 p) k = ix2 p (⟨k.val, k.isLt⟩ : Fin 1024) := by
  funext c; apply Fin.ext
  match c with | ⟨0, _⟩ => rfl | ⟨1, _⟩ => rfl

/-- Column `q` with row `k` put back is (k, q). -/
theorem lift_d0 (q : Fin 1024) (k : Fin (S1024x1024.size 0)) :
    red_d0.lift (ix1 q) k = ix2 (⟨k.val, k.isLt⟩ : Fin 1024) q := by
  funext c; apply Fin.ext
  match c with | ⟨0, _⟩ => rfl | ⟨1, _⟩ => rfl

/-- A max-reduction along the rows, at row `p`: the fold of max over the row's entries from the initial value. -/
theorem rowMax_apply (y : FVec Ideal S1024x1024 .f32) (c : FVec Ideal S_ .f32) (p : Fin 1024) :
    Host.reduce (FloatOps.maximumf (F := Ideal) (φ := .f32)) y c Gen.reducesTo_S1024x1024_S1024_d1 Gen.h_S_ (ix1 p)
      = (Finset.univ : Finset (Fin 1024)).fold max (c (Shape.Idx.first Gen.h_S_)) (fun q => y (ix2 p q)) := by
  rw [Host.reduce_eq_fold_single (FloatOps.maximumf (F := Ideal) (φ := .f32)) y c _ red_d1 Gen.h_S_]
  have hf : (y ∘ red_d1.lift (ix1 p)) = fun q : Fin 1024 => y (ix2 p q) :=
    funext fun k => congrArg y (lift_d1 p k)
  rw [hf]
  rfl

/-- A max-reduction along the columns, at column `q`. -/
theorem colMax_apply (y : FVec Ideal S1024x1024 .f32) (c : FVec Ideal S_ .f32) (q : Fin 1024) :
    Host.reduce (FloatOps.maximumf (F := Ideal) (φ := .f32)) y c Gen.reducesTo_S1024x1024_S1024_d0 Gen.h_S_ (ix1 q)
      = (Finset.univ : Finset (Fin 1024)).fold max (c (Shape.Idx.first Gen.h_S_)) (fun p => y (ix2 p q)) := by
  rw [Host.reduce_eq_fold_single (FloatOps.maximumf (F := Ideal) (φ := .f32)) y c _ red_d0 Gen.h_S_]
  have hf : (y ∘ red_d0.lift (ix1 q)) = fun p : Fin 1024 => y (ix2 p q) :=
    funext fun k => congrArg y (lift_d0 q k)
  rw [hf]
  rfl

/-! ## Softening along the rows -/

/-- Stage 10 at row `p`: the row's top. The extra maximum with the starting value changes nothing, the fold
    from that value being already above it. -/
theorem v10_eq (p : Fin 1024) :
    val_main_v10 (F := Ideal) x0 x1 (ix1 p) = Cert.Align.rowTop bot32 (sc x0 x1) p := by
  rw [val_main_v10_apply, val_main_v9_apply, val_main_cst_1_apply]
  unfold val_main_v8
  rw [rowMax_apply, val_main_cst_0_apply]
  simp only [Ideal.maximumf_def, Ideal.ofBits_def]
  rw [max_eq_right ((Finset.le_fold_max _).mpr (Or.inl le_rfl))]
  unfold Cert.Align.rowTop
  simp only [v7_eq]

/-- Stage 14 at (p, q): exp of the score minus its row's top. -/
theorem v14_eq (p q : Fin 1024) :
    val_main_v14 (F := Ideal) x0 x1 (ix2 p q) = Cert.Align.rowWeight bot32 (sc x0 x1) p q := by
  rw [val_main_v14_apply, val_main_v13_apply, val_main_v12_apply, val_main_v11_apply, v7_eq]
  have e : idx_main_v11 (idx_main_v12 (ix2 p q)) = ix1 p := by
    funext a; match a with | ⟨0, _⟩ => rfl
  rw [e, v10_eq]
  rfl

/-- Stage 15 at row `p`: the sum of the row's weights. -/
theorem v15_eq (p : Fin 1024) :
    val_main_v15 (F := Ideal) x0 x1 (ix1 p) = ∑ q : Fin 1024, Cert.Align.rowWeight bot32 (sc x0 x1) p q := by
  rw [val_main_v15_apply, val_main_cst_2_apply]
  simp only [Ideal.ofBits_def, Ideal.ofBits_zero_f32, zero_add]
  refine Finset.sum_congr rfl fun k _ => ?_
  have e : idx_main_v15 (ix1 p) k = ix2 p k := by
    funext a; match a with | ⟨0, _⟩ => rfl | ⟨1, _⟩ => rfl
  rw [e, v14_eq]

/-- Stage 18 at (p, q): the softmax along rows. -/
theorem v18_eq (p q : Fin 1024) :
    val_main_v18 (F := Ideal) x0 x1 (ix2 p q) = Cert.Align.rowSoft bot32 (sc x0 x1) p q := by
  rw [val_main_v18_apply, val_main_v17_apply, val_main_v16_apply, v14_eq]
  have e : idx_main_v16 (idx_main_v17 (ix2 p q)) = ix1 p := by
    funext a; match a with | ⟨0, _⟩ => rfl
  rw [e, v15_eq]
  rfl

/-! ## Softening along the columns -/

/-- Stage 21 at column `q`: the column's top. -/
theorem v21_eq (q : Fin 1024) :
    val_main_v21 (F := Ideal) x0 x1 (ix1 q) = Cert.Align.colTop bot32 (sc x0 x1) q := by
  rw [val_main_v21_apply, val_main_v20_apply, val_main_cst_4_apply]
  unfold val_main_v19
  rw [colMax_apply, val_main_cst_3_apply]
  simp only [Ideal.maximumf_def, Ideal.ofBits_def]
  rw [max_eq_right ((Finset.le_fold_max _).mpr (Or.inl le_rfl))]
  unfold Cert.Align.colTop
  simp only [v7_eq]

/-- Stage 25 at (p, q): exp of the score minus its column's top. -/
theorem v25_eq (p q : Fin 1024) :
    val_main_v25 (F := Ideal) x0 x1 (ix2 p q) = Cert.Align.colWeight bot32 (sc x0 x1) p q := by
  rw [val_main_v25_apply, val_main_v24_apply, val_main_v23_apply, val_main_v22_apply, v7_eq]
  have e : idx_main_v22 (idx_main_v23 (ix2 p q)) = ix1 q := by
    funext a; match a with | ⟨0, _⟩ => rfl
  rw [e, v21_eq]
  rfl

/-- Stage 26 at column `q`: the sum of the column's weights. -/
theorem v26_eq (q : Fin 1024) :
    val_main_v26 (F := Ideal) x0 x1 (ix1 q) = ∑ p : Fin 1024, Cert.Align.colWeight bot32 (sc x0 x1) p q := by
  rw [val_main_v26_apply, val_main_cst_5_apply]
  simp only [Ideal.ofBits_def, Ideal.ofBits_zero_f32, zero_add]
  refine Finset.sum_congr rfl fun k _ => ?_
  have e : idx_main_v26 (ix1 q) k = ix2 k q := by
    funext a; match a with | ⟨0, _⟩ => rfl | ⟨1, _⟩ => rfl
  rw [e, v25_eq]

/-- Stage 29 at (p, q): the softmax along columns. -/
theorem v29_eq (p q : Fin 1024) :
    val_main_v29 (F := Ideal) x0 x1 (ix2 p q) = Cert.Align.colSoft bot32 (sc x0 x1) p q := by
  rw [val_main_v29_apply, val_main_v28_apply, val_main_v27_apply, v25_eq]
  have e : idx_main_v27 (idx_main_v28 (ix2 p q)) = ix1 q := by
    funext a; match a with | ⟨0, _⟩ => rfl
  rw [e, v26_eq]
  rfl

/-! ## The mixture, its mass, the aligned score -/

/-- Stage 32 at (p, q): a + b − a·b of the two soft alignments. -/
theorem v32_eq (p q : Fin 1024) :
    val_main_v32 (F := Ideal) x0 x1 (ix2 p q) = Cert.Align.mix bot32 (sc x0 x1) p q := by
  rw [val_main_v32_apply, val_main_v30_apply, val_main_v31_apply, v18_eq, v29_eq]
  rfl

/-- Stage 33: the mixture's total mass (the sum over all index pairs is the double sum over the coordinates). -/
theorem v33_eq (i : S_.Idx) :
    val_main_v33 (F := Ideal) x0 x1 i = Cert.Align.mass bot32 (sc x0 x1) := by
  rw [val_main_v33_apply, val_main_cst_6_apply]
  simp only [Ideal.ofBits_def, Ideal.ofBits_zero_f32, zero_add]
  rw [sum_idx2]
  unfold Cert.Align.mass
  simp only [v32_eq]

/-- Stage 36 at (p, q): the normalised mixture times the score. -/
theorem v36_eq (p q : Fin 1024) :
    val_main_v36 (F := Ideal) x0 x1 (ix2 p q)
      = Ideal.div (Cert.Align.mix bot32 (sc x0 x1) p q) (Cert.Align.mass bot32 (sc x0 x1)) * sc x0 x1 p q := by
  rw [val_main_v36_apply, val_main_v35_apply, val_main_v34_apply, v32_eq, v33_eq, v7_eq]
  rfl

/-- Stage 37: the aligned score. -/
theorem v37_eq (i : S_.Idx) :
    val_main_v37 (F := Ideal) x0 x1 i = Cert.Align.aligned bot32 (sc x0 x1) := by
  rw [val_main_v37_apply, val_main_cst_7_apply]
  simp only [Ideal.ofBits_def, Ideal.ofBits_zero_f32, zero_add]
  rw [sum_idx2]
  unfold Cert.Align.aligned
  simp only [v36_eq]

end Stages

/-! ## The four outputs -/

/-- The reference's result at output `k` is the specification's `logits` there. -/

theorem val_eq (x0 x1 : (⟨S1024x128, .f32⟩ : BufTy).Contents (Elt Ideal)) (x2 : (⟨S1x4, .f32⟩ : BufTy).Contents (Elt Ideal)) (x3 : (⟨S4, .f32⟩ : BufTy).Contents (Elt Ideal)) (k : S4.Idx) :
    val_main_v42 (F := Ideal) x0 x1 x2 x3 k
      = Cert.Align.logits (Ideal.ofBits .f32 0xFF800000#32) (fun i d => x0 (ix2 i d)) (fun j d => x1 (ix2 j d)) (fun q => x2 (ix2 0 q)) (fun q => x3 (ix1 q)) (k 0) := by
  obtain ⟨k0, rfl⟩ : ∃ k0 : Fin 4, k = ix1 k0 := ⟨k 0, eq_ix1 k⟩
  rw [val_main_v42_apply, val_main_v41_apply, val_main_v39_apply, val_main_v38_apply, val_main_v40_apply, v37_eq]
  have e1 : idx_main_v42 (ix1 k0) = ix2 0 k0 := by
    funext a
    match a with
    | ⟨0, _⟩ => rfl
    | ⟨1, _⟩ => exact Fin.ext (Nat.mod_eq_of_lt k0.isLt)
  have e2 : idx_main_v40 (ix2 (0 : Fin 1) k0) = ix1 k0 := by
    funext a; match a with | ⟨0, _⟩ => rfl
  rw [e1, e2]
  rfl

end Cert.ReferenceIdeal.RefValue

end
-- ==== Proof.lean ====
/-
  Two programs that score how well two families of 1024 vectors of length 128 align.

  Both compute, over the extended reals, the same number from the same arguments.  The score of a pair (i, j)
  is minus the ℓ¹ distance of row i of the first family and row j of the second.  The score matrix is softened
  along its rows and along its columns (each entry's exponential after subtracting the largest entry of its row,
  respectively column, divided by the sum of those exponentials), the two soft alignments a, b are mixed as
  a + b − a·b, the mixture is divided by its total mass, and the aligned score is the sum of the normalised
  mixture against the scores; the four outputs are that number times θ plus β (Proof/Spec.lean).

  The kernel computes the score matrix in one region, sixteen rows at a point, writes zero minus the distance
  where the reference negates it, and takes each maximum once where the reference takes one more maximum with
  the starting value; its second region reads the matrix whole and leaves the aligned score in a 1 × 1 array, and
  the host operations after it form the outputs.  None of these differences changes a value on the extended
  reals: 0 − x = −x, a fold of max from b is at least b, and finite sums may be taken in any order.  So no
  finiteness of the inputs is used, and the precondition is never opened.

  The kernel's run with its result named is Proof/KernelRun.lean, the result as the specification's function of
  the arguments Proof/KernelValue.lean (over Proof/KernelScore.lean and Proof/KernelTail.lean, the two bodies read
  entry by entry), the reference's result as the same function Proof/RefValue.lean.  Nothing was rewritten when the
  kernel was idealized, so the preservation claim is the true proposition.
-/
import proofs.«167909_j23055384445147_1_alg».proof.Defs
import proofs.«167909_j23055384445147_1_alg».proof.Proof.Gen.Kernel
import proofs.«167909_j23055384445147_1_alg».proof.Proof.Gen.Kernel.Skeleton
import proofs.«167909_j23055384445147_1_alg».proof.Proof.Gen.Kernel.Launch
import proofs.«167909_j23055384445147_1_alg».proof.Proof.Gen.Kernel.Points
import proofs.«167909_j23055384445147_1_alg».proof.Proof.Gen.Kernel.Frame
import proofs.«167909_j23055384445147_1_alg».proof.Proof.Gen.KernelIdeal
import proofs.«167909_j23055384445147_1_alg».proof.Proof.Gen.KernelIdeal.Skeleton
import proofs.«167909_j23055384445147_1_alg».proof.Proof.Gen.KernelIdeal.Launch
import proofs.«167909_j23055384445147_1_alg».proof.Proof.Gen.KernelIdeal.Points
import proofs.«167909_j23055384445147_1_alg».proof.Proof.Gen.KernelIdeal.Frame
import proofs.«167909_j23055384445147_1_alg».proof.Proof.Gen.ReferenceIdeal
import proofs.«167909_j23055384445147_1_alg».proof.Proof.Gen.Pre_finite_inputs
import proofs.«167909_j23055384445147_1_alg».proof.Proof.Gen.ReferenceIdeal.Run
import proofs.«167909_j23055384445147_1_alg».proof.Proof.Gen.ReferenceIdeal.Read
import proofs.«167909_j23055384445147_1_alg».proof.Proof.KernelRun
import proofs.«167909_j23055384445147_1_alg».proof.Proof.KernelValue
import proofs.«167909_j23055384445147_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the four outputs of the specification. -/
theorem algebraic : Cert.algebraic_KernelIdeal_ReferenceIdeal := by
  intro m ρ m' ρ' _ hagree
  refine ⟨fun c => Cert.KernelIdeal.Result.outputs m c, ?_, ?_⟩
  · exact (θ_run Cert.KernelIdeal.defs _ _).mono
      (fun r h c => ⟨(h c).1.trans (Cert.KernelIdeal.Result.result_eq m ρ c), (h c).2⟩)
      (Cert.KernelIdeal.Result.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, (hagree c).1, (hagree c).2.1, (hagree c).2.2.1, (hagree c).2.2.2]
    funext k
    exact Cert.ReferenceIdeal.RefValue.val_eq _ _ _ _ k

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
